-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S2048x512, .f32⟩
  | .local _ .vmem, ⟨5, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S2048x512_S2048x512_0_0 : ∀ a, (![0, 0] : Fin 2 → Nat) a + S2048x512.size a ≤ S2048x512.size a
  h_S2048x512 : 0 < S2048x512.numel
  dot_S2048x4096_S4096x512_S2048x512_1_0_0_1_n_n_wf : DotDims.WF S2048x4096 S4096x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x4096.size a
  hwx0_2 : ∀ i : grid0.Coords, EltTy.bits .f32 = 32 ∨ (Rect.block (s := S8192x4096) S2048x512.size (cc0_transform_2 i) (hinb0_2 i)).WholeWords (EltTy.packing .f32)

variable [Facts₀]

def dot_S2048x4096_S4096x512_S2048x512_1_0_0_1_n_n : DotDims S2048x4096 S4096x512 S2048x512 where
  lhsContracting := [1]
  rhsContracting := [0]
  lhsNonContracting := [0]
  rhsNonContracting := [1]
  lhsBatch := []
  rhsBatch := []
  wf := dot_S2048x4096_S4096x512_S2048x512_1_0_0_1_n_n_wf

abbrev win0_0 : Pipeline.Window sig grid0 :=
  Pipeline.Window.ofSpec (Memref.whole main_v2) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Rotation.lean ====
/-
  The function both programs compute. A batch of 8192 row vectors of length 4096 is multiplied on the right by the
  sum of two 4096 × 4096 matrices: entry (r, c) of the result is the sum over k of x[r, k] · (w[k, c] + p[k, c]),
  read on the extended reals. Nothing here depends on either program: the index types are the literal shapes.
-/
import Idealize.ShloMosaic.PureOps.Ideal
import Idealize.ShloMosaic.Lib.ValueIdx

noncomputable section

namespace Cert.Rotation

open Idealize.ShloMosaic Idealize.ShloMosaic.ValueIdx

/-- Entry (r, c) of x · (w + p): the row r of x against the column c of w + p, summed over the 4096 shared
    coordinates. -/
def rotated (x : (⟨2, ![8192, 4096]⟩ : Shape).Idx → EReal) (w p : (⟨2, ![4096, 4096]⟩ : Shape).Idx → EReal) :
    (⟨2, ![8192, 4096]⟩ : Shape).Idx → EReal :=
  fun i => ∑ k : Fin 4096, x (ix2 (i 0) k) * (w (ix2 k (i 1)) + p (ix2 k (i 1)))

/-- The same at an index given by its row r and its column c. -/
theorem rotated_apply (x : (⟨2, ![8192, 4096]⟩ : Shape).Idx → EReal) (w p : (⟨2, ![4096, 4096]⟩ : Shape).Idx → EReal)
    (r : Fin 8192) (c : Fin 4096) :
    rotated x w p (ix2 r c) = ∑ k : Fin 4096, x (ix2 r k) * (w (ix2 k c) + p (ix2 k c)) := rfl

end Cert.Rotation

end
-- ==== Proof.TileProduct.lean ====
/-
  One grid point's arithmetic. The body multiplies a 2048 × 4096 tile of the left operand by a 4096 × 512 tile of
  the right operand, contracting the left tile's second axis against the right tile's first axis into an
  accumulator that starts at zero: entry (p, q) of the product tile is the sum over k of x[p, k] · y[k, q].
-/
import proofs.«167619_j49727131353410_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left tile is read at the output's row: its first axis is not contracted. -/
theorem lhs_row (j : S2048x512.Idx) (q : dot_S2048x4096_S4096x512_S2048x512_1_0_0_1_n_n.contr.Idx) :
    (dot_S2048x4096_S4096x512_S2048x512_1_0_0_1_n_n.lhsIdx j q 0).val = (j 0).val := by
  unfold DotDims.lhsIdx
  rw [dif_neg (show ¬(0 : Fin S2048x4096.rank) ∈ dot_S2048x4096_S4096x512_S2048x512_1_0_0_1_n_n.lhsBatch by decide), dif_pos (show (0 : Fin S2048x4096.rank) ∈ dot_S2048x4096_S4096x512_S2048x512_1_0_0_1_n_n.lhsNonContracting by decide)]
  rfl

/-- The left tile's second axis is the contracted one. -/
theorem lhs_contracted (j : S2048x512.Idx) (q : dot_S2048x4096_S4096x512_S2048x512_1_0_0_1_n_n.contr.Idx) :
    (dot_S2048x4096_S4096x512_S2048x512_1_0_0_1_n_n.lhsIdx j q 1).val = (q ⟨0, by decide⟩).val :=
  dot_S2048x4096_S4096x512_S2048x512_1_0_0_1_n_n.lhsIdx_val_of_single rfl j q

/-- The right tile's first axis is the contracted one. -/
theorem rhs_contracted (j : S2048x512.Idx) (q : dot_S2048x4096_S4096x512_S2048x512_1_0_0_1_n_n.contr.Idx) :
    (dot_S2048x4096_S4096x512_S2048x512_1_0_0_1_n_n.rhsIdx j q 0).val = (q ⟨0, by decide⟩).val :=
  dot_S2048x4096_S4096x512_S2048x512_1_0_0_1_n_n.rhsIdx_val_of_single rfl j q

/-- The right tile is read at the output's column: its second axis is not contracted. -/
theorem rhs_col (j : S2048x512.Idx) (q : dot_S2048x4096_S4096x512_S2048x512_1_0_0_1_n_n.contr.Idx) :
    (dot_S2048x4096_S4096x512_S2048x512_1_0_0_1_n_n.rhsIdx j q 1).val = (j 1).val := by
  unfold DotDims.rhsIdx
  rw [dif_neg (show ¬(1 : Fin S4096x512.rank) ∈ dot_S2048x4096_S4096x512_S2048x512_1_0_0_1_n_n.rhsBatch by decide), dif_pos (show (1 : Fin S4096x512.rank) ∈ dot_S2048x4096_S4096x512_S2048x512_1_0_0_1_n_n.rhsNonContracting by decide)]
  rfl

/-- Entry (p, q) of the product tile is the row p of the left tile against the column q of the right tile,
    summed over the 4096 contracted coordinates; the zero accumulator adds nothing. -/
theorem product_apply (x : Vec Ideal S2048x4096 .bf16) (y : Vec Ideal S4096x512 .bf16) (p : Fin 2048) (q : Fin 512) :
    k0_pay1 (F := Ideal) x y (ix2 p q) = ∑ k : Fin 4096, x (ix2 p k) * y (ix2 k q) := by
  unfold k0_pay1
  rw [shapeCast_self, shapeCast_self]
  refine (Ideal.matmul_constant_zero_apply (φ₁ := .bf16) (φ₂ := .bf16) dot_S2048x4096_S4096x512_S2048x512_1_0_0_1_n_n none x y (ix2 p q)).trans ?_
  rw [← Equiv.sum_comp (contrEquiv1 dot_S2048x4096_S4096x512_S2048x512_1_0_0_1_n_n 4096 rfl rfl).symm]
  refine Finset.sum_congr rfl fun k _ => ?_
  have hk := contrEquiv1_symm_val dot_S2048x4096_S4096x512_S2048x512_1_0_0_1_n_n 4096 rfl rfl k
  have el : dot_S2048x4096_S4096x512_S2048x512_1_0_0_1_n_n.lhsIdx (ix2 p q) ((contrEquiv1 dot_S2048x4096_S4096x512_S2048x512_1_0_0_1_n_n 4096 rfl rfl).symm k) = ix2 p k := funext fun a => Fin.ext (by
    match a with
    | ⟨0, _⟩ => exact lhs_row _ _
    | ⟨1, _⟩ => exact (lhs_contracted _ _).trans hk)
  have er : dot_S2048x4096_S4096x512_S2048x512_1_0_0_1_n_n.rhsIdx (ix2 p q) ((contrEquiv1 dot_S2048x4096_S4096x512_S2048x512_1_0_0_1_n_n 4096 rfl rfl).symm k) = ix2 k q := funext fun a => Fin.ext (by
    match a with
    | ⟨0, _⟩ => exact (rhs_contracted _ _).trans hk
    | ⟨1, _⟩ => exact rhs_col _ _)
  rw [el, er]

end Cert.KernelIdeal.Tile

end
-- ==== Proof.StagedOperands.lean ====
/-
  What the matrix product finds in its two operands. Before the product the program adds the two 4096 × 4096
  matrices and changes the format of that sum and of the 8192 × 4096 batch. On the extended reals a change of
  format is the identity, so the left operand is the batch itself and the right operand is the entrywise sum
  of the two matrices.
-/
import proofs.«167619_j49727131353410_1_alg».proof.Proof.Gen.KernelIdeal.Frame
import Idealize.ShloMosaic.Lib.StableHlo.Run
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The left operand, as the product finds it, is the first argument: only its format was changed. -/
theorem left_operand (c : Dev nD) :
    (V m c main_v2 : S8192x4096.Idx → EReal) = m ((c : Thread nD τ).loc main_arg0) := by
  dsimp only [Gen.V, Gen.hostOps0]; after_results; rfl

/-- The entrywise sum of two 4096 × 4096 matrices of extended reals. -/
def entrywiseSum (a b : S4096x4096.Idx → EReal) : S4096x4096.Idx → EReal := fun i => a i + b i

/-- The right operand, as the product finds it, is the entrywise sum of the second and third arguments. -/
theorem right_operand (c : Dev nD) :
    (V m c main_v1 : S4096x4096.Idx → EReal)
      = entrywiseSum (m ((c : Thread nD τ).loc main_arg1)) (m ((c : Thread nD τ).loc main_arg2)) := by
  dsimp only [Gen.V, Gen.hostOps0]; after_results; rfl

/-- The left operand as the product finds it, as a function on the 8192 × 4096 indices. -/
abbrev leftOperand (c : Dev nD) : S8192x4096.Idx → EReal := V m c main_v2

/-- The right operand as the product finds it, as a function on the 4096 × 4096 indices. -/
abbrev rightOperand (c : Dev nD) : S4096x4096.Idx → EReal := V m c main_v1

theorem leftOperand_eq (c : Dev nD) : leftOperand m c = m ((c : Thread nD τ).loc main_arg0) := left_operand m c

theorem rightOperand_eq (c : Dev nD) :
    rightOperand m c = entrywiseSum (m ((c : Thread nD τ).loc main_arg1)) (m ((c : Thread nD τ).loc main_arg2)) :=
  right_operand m c

end Cert.KernelIdeal.Staged

end
-- ==== Proof.WholeProduct.lean ====
/-
  From tiles to the whole result. The grid has 4 × 8 points. Point (a, b) multiplies rows 2048·a … 2048·a + 2047
  of the left operand, with all 4096 columns, by columns 512·b … 512·b + 511 of the right operand, with all
  4096 rows, and writes the 2048 × 512 tile at block (a, b) of the result. The contraction is whole inside every
  tile, so entry (p, q) of tile (a, b) is entry (2048·a + p, 512·b + q) of x · (w + p); the 32 tiles are
  disjoint and cover the 8192 × 4096 result, which therefore is x · (w + p).
-/
import proofs.«167619_j49727131353410_1_alg».proof.Proof.Gen.KernelIdeal.Value
import proofs.«167619_j49727131353410_1_alg».proof.Proof.Rotation
import proofs.«167619_j49727131353410_1_alg».proof.Proof.TileProduct
import proofs.«167619_j49727131353410_1_alg».proof.Proof.StagedOperands

noncomputable section

namespace Cert.KernelIdeal.Whole

open Cert.KernelIdeal Cert.KernelIdeal.Gen Idealize.ShloMosaic Idealize.ShloMosaic.TcCoe Idealize.SL.Sem
open Idealize.ShloMosaic.ValueIdx Cert.Rotation
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The three block indices at a grid point: the left operand's row block is the result's row block and its
    column block is 0; the right operand's row block is 0 and its column block is the result's column block; the
    result's block indices range over 4 × 8. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block (a, b) of the 4 × 8 blocks of the result is some grid point's. -/
theorem block_onto : ∀ (a : Fin 4) (b : Fin 8), ∃ t : Fin cfg0.N, win0_2.index t = ![a.val, b.val] :=
  (by decide +kernel : ∀ (a : Fin 4) (b : Fin 8), ∃ t : Fin grid0.N, win0_2.index t = ![a.val, b.val])

/-- Entry (p, q) of the result's tile at point `t` sits at row 2048·a + p and column 512·b + q of the result. -/
theorem out_entry (t : Fin cfg0.N) (p : Fin 2048) (q : Fin 512) (R : Fin 8192) (C : Fin 4096)
    (hR : R.val = win0_2.index t (0 : Fin 2) * 2048 + p.val) (hC : C.val = win0_2.index t (1 : Fin 2) * 512 + q.val) :
    ((cfg0.win 2).blk t).view.emb (ix2 p q) = ix2 R C := by
  funext a; apply Fin.ext
  match a with
  | ⟨0, _⟩ => show win0_2.index t (0 : Fin 2) * 2048 + 1 * p.val = R.val; omega
  | ⟨1, _⟩ => show win0_2.index t (1 : Fin 2) * 512 + 1 * q.val = C.val; omega

/-- Entry (p, k) of the left operand's tile sits at the same row of the left operand as the result's and at
    column k: the tile holds whole rows. -/
theorem left_entry (t : Fin cfg0.N) (p : Fin 2048) (k : Fin 4096) (R : Fin 8192)
    (hR : R.val = win0_0.index t (0 : Fin 2) * 2048 + p.val) (h0 : win0_0.index t (1 : Fin 2) = 0) :
    ((cfg0.win 0).blk t).view.emb (ix2 p k) = ix2 R k := by
  funext a; apply Fin.ext
  match a with
  | ⟨0, _⟩ => show win0_0.index t (0 : Fin 2) * 2048 + 1 * p.val = R.val; omega
  | ⟨1, _⟩ => show win0_0.index t (1 : Fin 2) * 4096 + 1 * k.val = k.val; omega

/-- Entry (k, q) of the right operand's tile sits at row k and at the same column of the right operand as the
    result's: the tile holds whole columns. -/
theorem right_entry (t : Fin cfg0.N) (k : Fin 4096) (q : Fin 512) (C : Fin 4096)
    (hC : C.val = win0_1.index t (1 : Fin 2) * 512 + q.val) (h0 : win0_1.index t (0 : Fin 2) = 0) :
    ((cfg0.win 1).blk t).view.emb (ix2 k q) = ix2 k C := by
  funext a; apply Fin.ext
  match a with
  | ⟨0, _⟩ => show win0_1.index t (0 : Fin 2) * 4096 + 1 * k.val = k.val; omega
  | ⟨1, _⟩ => show win0_1.index t (1 : Fin 2) * 512 + 1 * q.val = C.val; omega

/-- What grid point `t` writes back is block `t` of x · (w + p): the tile's sum over k runs over the whole
    contracted axis, the left tile's rows are the result's rows, the right tile's columns the result's columns. -/
theorem tile_eq (c : Dev nD) (t : Fin cfg0.N) :
    (dats m 0 c).flushed 2 t = ((cfg0.win 2).blk t).view.read (Elt Ideal)
      (rotated (m ((c : Thread nD τ).loc main_arg0)) (m ((c : Thread nD τ).loc main_arg1)) (m ((c : Thread nD τ).loc main_arg2))) := by
  rw [Value.flushed2]
  unfold out0_2
  rw [View.canon_unit_zero origin]
  simp only [View.ld_unit_zero (S := S2048x4096) origin, View.ld_unit_zero (S := S4096x512) origin]
  obtain ⟨e0, e1, e2, e3, e4, e5⟩ := block_indices t
  funext j
  obtain ⟨p, q, rfl⟩ : ∃ (p : Fin 2048) (q : Fin 512), j = ix2 p q := ⟨j 0, j 1, eq_ix2 j⟩
  have hp := p.isLt
  have hq := q.isLt
  obtain ⟨R, hR⟩ : ∃ R : Fin 8192, R.val = win0_2.index t (0 : Fin 2) * 2048 + p.val := ⟨⟨_, by omega⟩, rfl⟩
  obtain ⟨C, hC⟩ : ∃ C : Fin 4096, C.val = win0_2.index t (1 : Fin 2) * 512 + q.val := ⟨⟨_, by omega⟩, rfl⟩
  show k0_pay1 (F := Ideal) (iblk m c 0 t) (iblk m c 1 t) (ix2 p q)
    = rotated (m ((c : Thread nD τ).loc main_arg0)) (m ((c : Thread nD τ).loc main_arg1)) (m ((c : Thread nD τ).loc main_arg2))
        (((cfg0.win 2).blk t).view.emb (ix2 p q))
  rw [out_entry t p q R C hR hC, rotated_apply]
  refine (Tile.product_apply (iblk m c 0 t) (iblk m c 1 t) p q).trans ?_
  refine Finset.sum_congr rfl fun k _ => ?_
  show Staged.leftOperand m c (((cfg0.win 0).blk t).view.emb (ix2 p k)) * Staged.rightOperand m c (((cfg0.win 1).blk t).view.emb (ix2 k q)) = _
  rw [left_entry t p k R (by omega) e1, right_entry t k q C (by omega) e2, Staged.leftOperand_eq, Staged.rightOperand_eq]
  rfl

/-- An index of the result is in point `t`'s tile iff each coordinate is in the tile's range on its axis. -/
theorem mem_tile (t : Fin cfg0.N) (i : S8192x4096.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v3).slice (win0_2.rect t)).set ↔ _
  rw [View.set_slice_whole, Rect.mem_set_unit]
  exact Iff.rfl

/-- The tiles cover the result: entry (r, c) lies in the tile of block (r / 2048, c / 512). -/
theorem tiles_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := block_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- After the last grid point the result array is x · (w + p) of the three arguments. -/
theorem whole (c : Dev nD) :
    (dats m 0 c).arrAt 2 cfg0.N
      = rotated (m ((c : Thread nD τ).loc main_arg0)) (m ((c : Thread nD τ).loc main_arg1)) (m ((c : Thread nD τ).loc main_arg2)) :=
  (dats m 0 c).arrAt_eq_of_cover 2 _ (fun t _ => tile_eq m c t) tiles_cover

/-- Every run of the program ends with the result at x · (w + p) and the three arguments unchanged. -/
theorem run : θ_run defs (onTc (τ := τ) (main (F := Ideal))) ⟨m, fun _ => 0, ρ⟩ fun r => ∀ c : Dev nD,
      r.2.mem ((c : Thread nD τ).loc main_v3)
        = rotated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (whole m c), (h c).2⟩) (Value.run_blocks m ρ)

end Cert.KernelIdeal.Whole

end
-- ==== Proof.ReferenceProduct.lean ====
/-
  The reference's matrix product, read at an index, is the function `rotated`: its dot_general contracts the
  second axis of x against the first axis of w + p, so entry (r, c) is the sum over k of x[r, k] · (w + p)[k, c].
-/
import proofs.«167619_j49727131353410_1_alg».proof.Proof.Gen.ReferenceIdeal.Read
import proofs.«167619_j49727131353410_1_alg».proof.Proof.Rotation

noncomputable section

namespace Cert.ReferenceIdeal.Product

open Cert.ReferenceIdeal Cert.ReferenceIdeal.Read Idealize.ShloMosaic Idealize.ShloMosaic.ValueIdx

/-- The left operand is read at row r of the output index and at the contracted coordinate k. -/
theorem left_index (r : Fin 8192) (c : Fin 4096) (k : Fin 4096) : lidx_main_v1 (ix2 r c) k = ix2 r k :=
  funext fun a => Fin.ext (by match a with | ⟨0, _⟩ => rfl | ⟨1, _⟩ => rfl)

/-- The right operand is read at the contracted coordinate k and at column c of the output index. -/
theorem right_index (r : Fin 8192) (c : Fin 4096) (k : Fin 4096) : ridx_main_v1 (ix2 r c) k = ix2 k c :=
  funext fun a => Fin.ext (by match a with | ⟨0, _⟩ => rfl | ⟨1, _⟩ => rfl)

/-- The reference's result as a function of its three arguments is x · (w + p). -/
theorem dot_eq_rotated (x0 : (⟨S8192x4096, .f32⟩ : BufTy).Contents (Elt Ideal))
    (x1 x2 : (⟨S4096x4096, .f32⟩ : BufTy).Contents (Elt Ideal)) :
    val_main_v1 (F := Ideal) x0 x1 x2 = Cert.Rotation.rotated x0 x1 x2 := by
  funext i
  obtain ⟨r, c, rfl⟩ : ∃ (r : Fin 8192) (c : Fin 4096), i = ix2 r c := ⟨i 0, i 1, eq_ix2 i⟩
  rw [val_main_v1_apply, Cert.Rotation.rotated_apply]
  refine Finset.sum_congr rfl fun k _ => ?_
  rw [left_index, right_index]
  rfl

end Cert.ReferenceIdeal.Product

end
-- ==== Proof.lean ====
/-
  A batch of 8192 row vectors of length 4096 is multiplied on the right by the sum of two 4096 × 4096 matrices.
  The kernel adds the two matrices, changes the format of the sum and of the batch, and computes the product in
  4 × 8 tiles of 2048 × 512 entries, each tile contracting the whole shared axis of length 4096 into an
  accumulator that starts at zero. The reference adds the two matrices and takes one whole matrix product.
  On the extended reals a change of format is the identity, and a tile's entry (p, q) is the sum over all 4096
  values of k of x[r, k] · (w[k, c] + p[k, c]) at the row r and column c where the tile sits, which is the
  reference's entry (r, c) term by term: no rearrangement of the sum is needed, so finiteness of the inputs is
  never used. The kernel read on the extended reals differs from the kernel as printed in no operation, so
  nothing is owed for the passage between the two.
-/
import proofs.«167619_j49727131353410_1_alg».proof.Defs
import proofs.«167619_j49727131353410_1_alg».proof.Proof.Gen.Kernel
import proofs.«167619_j49727131353410_1_alg».proof.Proof.Gen.Kernel.Skeleton
import proofs.«167619_j49727131353410_1_alg».proof.Proof.Gen.Kernel.Launch
import proofs.«167619_j49727131353410_1_alg».proof.Proof.Gen.Kernel.Points
import proofs.«167619_j49727131353410_1_alg».proof.Proof.Gen.Kernel.Frame
import proofs.«167619_j49727131353410_1_alg».proof.Proof.Gen.KernelIdeal
import proofs.«167619_j49727131353410_1_alg».proof.Proof.Gen.KernelIdeal.Skeleton
import proofs.«167619_j49727131353410_1_alg».proof.Proof.Gen.KernelIdeal.Launch
import proofs.«167619_j49727131353410_1_alg».proof.Proof.Gen.KernelIdeal.Points
import proofs.«167619_j49727131353410_1_alg».proof.Proof.Gen.KernelIdeal.Frame
import proofs.«167619_j49727131353410_1_alg».proof.Proof.Gen.ReferenceIdeal
import proofs.«167619_j49727131353410_1_alg».proof.Proof.Gen.Pre_finite_inputs
import proofs.«167619_j49727131353410_1_alg».proof.Proof.Gen.KernelIdeal.Value
import proofs.«167619_j49727131353410_1_alg».proof.Proof.Gen.ReferenceIdeal.Run
import proofs.«167619_j49727131353410_1_alg».proof.Proof.Gen.ReferenceIdeal.Read
import proofs.«167619_j49727131353410_1_alg».proof.Proof.WholeProduct
import proofs.«167619_j49727131353410_1_alg».proof.Proof.ReferenceProduct
import Idealize.ShloMosaic.Adequacy
import Idealize.ShloMosaic.Init

noncomputable section

namespace Cert.Proof

open Idealize.ShloMosaic Idealize.SL.Sem

/-- The kernel as printed terminates without a fault and leaves its three arguments as they were. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference is two host operations: its run ends with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with x · (w + p) of the shared arguments: the kernel tile by tile, the reference as one
    product, the same sum over the contracted axis at every entry. -/
theorem equal_results : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Product.dot_eq_rotated _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, equal_results⟩

end Cert.Proof

end
